-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S512x512 : Shape := ⟨2, ![512, 512]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S16x4096x512 .f32) (main_arg1 : FVec F S512x512 .f32) (main_arg2 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S16x4096x512 : Shape := ⟨3, ![16, 4096, 512]⟩
abbrev S512x512 : Shape := ⟨2, ![512, 512]⟩
abbrev S512 : Shape := ⟨1, ![512]⟩
abbrev S65536x512 : Shape := ⟨2, ![65536, 512]⟩
abbrev S1x512 : Shape := ⟨2, ![1, 512]⟩
abbrev S2048x512 : Shape := ⟨2, ![2048, 512]⟩

abbrev nBuf : Space → Nat
  | .hbm => 10
  | .vmem => 6
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512, .f32⟩
  | .hbm, ⟨3, _⟩ => ⟨S65536x512, .f32⟩
  | .hbm, ⟨4, _⟩ => ⟨S512x512, .f32⟩
  | .hbm, ⟨5, _⟩ => ⟨S512x512, .f32⟩
  | .hbm, ⟨6, _⟩ => ⟨S512x512, .bf16⟩
  | .hbm, ⟨7, _⟩ => ⟨S1x512, .f32⟩
  | .hbm, ⟨8, _⟩ => ⟨S65536x512, .f32⟩
  | .hbm, ⟨9, _⟩ => ⟨S16x4096x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x4096x512_S65536x512 : S16x4096x512.ShapeCasts S65536x512
  transposes_S512x512_S512x512_1_0 : S512x512.Transposes [1, 0] S512x512
  bitsLt_bf16_f32 : FTy.bits .bf16 < FTy.bits .f32
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S65536x512_S16x4096x512 : S65536x512.ShapeCasts S16x4096x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S512x512 : Shape := ⟨2, ![512, 512]⟩
abbrev S512 : Shape := ⟨1, ![512]⟩
abbrev S1x1x512 : Shape := ⟨3, ![1, 1, 512]⟩

abbrev nBuf : Space → Nat
  | .hbm => 8
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S16x4096x512, .f32⟩
  | .hbm, ⟨5, _⟩ => ⟨S1x1x512, .f32⟩
  | .hbm, ⟨6, _⟩ => ⟨S16x4096x512, .f32⟩
  | .hbm, ⟨7, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  dot_S16x4096x512_S512x512_S16x4096x512_2_1_01_0_n_n_wf : DotDims.WF S16x4096x512 S512x512 S16x4096x512 [2] [1] [0, 1] [0] [] []

variable [Facts₀]

def dot_S16x4096x512_S512x512_S16x4096x512_2_1_01_0_n_n : DotDims S16x4096x512 S512x512 S16x4096x512 where
  lhsContracting := [2]
  rhsContracting := [1]
  lhsNonContracting := [0, 1]
  rhsNonContracting := [0]
  lhsBatch := []
  rhsBatch := []
  wf := dot_S16x4096x512_S512x512_S16x4096x512_2_1_01_0_n_n_wf

class Facts : Prop extends Facts₀ where

variable [Facts]
-- ==== Proof.Payload.lean ====
/-
  What one grid step stores, read at an entry. The body loads a [2048, 512] block of flattened activations, the whole
  [512, 512] transposed weight and the one-row bias, multiplies block by weight into a zero accumulator and adds the
  bias row to every row. On the extended reals the change of float format before the product is the identity and
  the zero accumulator adds nothing, so entry (p, q) of the stored block is

      (Σ_k block[p, k] · weight[k, q]) + bias[0, q].

  The product's contraction runs over the one contracted axis; its index set is identified with `Fin 512` and the
  operand indices are read coordinate by coordinate: the left operand at (p, k), the right at (k, q).
-/
import proofs.«137450_j61933428408793_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.SignLinear.Body

open Cert.KernelIdeal Cert.KernelIdeal.Gen
open Idealize.ShloMosaic Idealize.ShloMosaic.ValueIdx

/-! ## The product's operand indices, axis by axis -/

/-- The left operand's row is the output's row. -/
theorem lhs_row (j : S2048x512.Idx) (q : dot_S2048x512_S512x512_S2048x512_1_0_0_1_n_n.contr.Idx) :
    (dot_S2048x512_S512x512_S2048x512_1_0_0_1_n_n.lhsIdx j q 0).val = (j 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- The left operand's column is the contracted coordinate. -/
theorem lhs_col (j : S2048x512.Idx) (q : dot_S2048x512_S512x512_S2048x512_1_0_0_1_n_n.contr.Idx) :
    (dot_S2048x512_S512x512_S2048x512_1_0_0_1_n_n.lhsIdx j q 1).val = (q ⟨0, by decide⟩).val :=
  dot_S2048x512_S512x512_S2048x512_1_0_0_1_n_n.lhsIdx_val_of_single rfl j q
/-- The right operand's row is the contracted coordinate. -/
theorem rhs_row (j : S2048x512.Idx) (q : dot_S2048x512_S512x512_S2048x512_1_0_0_1_n_n.contr.Idx) :
    (dot_S2048x512_S512x512_S2048x512_1_0_0_1_n_n.rhsIdx j q 0).val = (q ⟨0, by decide⟩).val :=
  dot_S2048x512_S512x512_S2048x512_1_0_0_1_n_n.rhsIdx_val_of_single rfl j q
/-- The right operand's column is the output's column. -/
theorem rhs_col (j : S2048x512.Idx) (q : dot_S2048x512_S512x512_S2048x512_1_0_0_1_n_n.contr.Idx) :
    (dot_S2048x512_S512x512_S2048x512_1_0_0_1_n_n.rhsIdx j q 1).val = (j 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-! ## The product into a zero accumulator is the plain sum -/

theorem product_apply (a : FVec Ideal S2048x512 .bf16) (b : FVec Ideal S512x512 .bf16) (p : Fin 2048) (q : Fin 512) :
    matmul dot_S2048x512_S512x512_S2048x512_1_0_0_1_n_n none a b (constant (F := Ideal) S2048x512 .f32 0x00000000#32) (ix2 p q)
      = ∑ k : Fin 512, a (ix2 p k) * b (ix2 k q) := by
  refine (Ideal.matmul_constant_zero_apply dot_S2048x512_S512x512_S2048x512_1_0_0_1_n_n none a b (ix2 p q)).trans ?_
  rw [← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q) ((contrEquiv1 dot_S2048x512_S512x512_S2048x512_1_0_0_1_n_n 512 rfl rfl).symm k) = ix2 p k := funext fun ax => Fin.ext (by
    match ax with
    | ⟨0, _⟩ => exact lhs_row _ _
    | ⟨1, _⟩ => exact (lhs_col _ _).trans hk)
  have er : dot_S2048x512_S512x512_S2048x512_1_0_0_1_n_n.rhsIdx (ix2 p q) ((contrEquiv1 dot_S2048x512_S512x512_S2048x512_1_0_0_1_n_n 512 rfl rfl).symm k) = ix2 k q := funext fun ax => Fin.ext (by
    match ax with
    | ⟨0, _⟩ => exact (rhs_row _ _).trans hk
    | ⟨1, _⟩ => exact rhs_col _ _)
  rw [el, er]

/-! ## The stored block at an entry -/

theorem stored_apply (x0 : Vec Ideal S2048x512 .f32) (x1 : Vec Ideal S512x512 .bf16) (x2 : Vec Ideal S1x512 .f32)
    (p : Fin 2048) (q : Fin 512) :
    k0_pay1 (F := Ideal) x0 x1 x2 (ix2 p q) = (∑ k : Fin 512, x0 (ix2 p k) * x1 (ix2 k q)) + x2 (ix2 (0 : Fin 1) q) := by
  unfold k0_pay1
  rw [addf_apply, shapeCast_self, shapeCast_self, shapeCast_self, broadcastTo_1b_ab_apply, product_apply]
  rfl

end Cert.SignLinear.Body

end
-- ==== Proof.Dense.lean ====
/-
  The layer both programs compute, written once as a function on the extended reals:

      out[b, s, o] = (Σ_k x[b, s, k] · w[o, k]) + bias[o]        (b < 16, s < 4096, o, k < 512)

  with `w` the already binarised weight. The kernel works on the flattened activations: row `r = b·4096 + s` of a
  [65536, 512] matrix against the TRANSPOSED weight, the bias as a one-row matrix, and the result folded back to
  [16, 4096, 512]. `dense_of_flat` says the two arrangements are one function: the row-major position of (b, s, k) in
  [16, 4096, 512] is that of (b·4096 + s, k) in [65536, 512], a transposed matrix read at (k, o) is the matrix at (o, k),
  and a change of float format is the identity on the extended reals. No law of arithmetic is used beyond rewriting
  the summand, so nothing here needs the inputs finite.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.SignLinear

open Idealize.ShloMosaic Idealize.ShloMosaic.ValueIdx

abbrev Sx : Shape := ⟨3, ![16, 4096, 512]⟩
abbrev Sw : Shape := ⟨2, ![512, 512]⟩
abbrev Sb : Shape := ⟨1, ![512]⟩
abbrev Sf : Shape := ⟨2, ![65536, 512]⟩
abbrev Sr : Shape := ⟨2, ![1, 512]⟩

/-- The layer in its batched form: entry (b, s, o) is the inner product of activation row (b, s) with weight row o,
    plus the bias at o. -/
def dense (x : FVec Ideal Sx .f32) (w : FVec Ideal Sw .f32) (bias : FVec Ideal Sb .f32) : FVec Ideal Sx .f32 :=
  fun i => (∑ k : Fin 512, x (ix3 (i 0) (i 1) k) * w (ix2 (i 2) k)) + bias (ix1 (i 2))

/-- The layer in its flat form: entry (r, o) is the inner product of row r of the flattened activations with COLUMN o
    of the transposed weight, plus the one-row bias at o. -/
def denseFlat (xf : FVec Ideal Sf .f32) (wt : FVec Ideal Sw .bf16) (b2 : FVec Ideal Sr .f32) : FVec Ideal Sf .f32 :=
  fun j => (∑ k : Fin 512, xf (ix2 (j 0) k) * wt (ix2 k (j 1))) + b2 (ix2 (0 : Fin 1) (j 1))

/-- Row b·4096 + s of the flattened activations. -/
def flatRow (b : Fin 16) (s : Fin 4096) : Fin 65536 :=
  ⟨b.val * 4096 + s.val, by have := b.isLt; have := s.isLt; omega⟩

/-- The flattened activations at (b·4096 + s, k) are the activations at (b, s, k). -/
theorem flatten_apply (x : FVec Ideal Sx .f32) (h : Sx.ShapeCasts Sf) (b : Fin 16) (s : Fin 4096) (k : Fin 512) :
    shapeCast Sf x h (ix2 (flatRow b s) k) = x (ix3 b s k) :=
  shapeCast_apply x h _ _ (by
    rw [Shape.rowMajor_val_three, Shape.rowMajor_val_two]
    rfl)

/-- Folding a [65536, 512] matrix back: entry (b, s, o) is the matrix at (b·4096 + s, o). -/
theorem unflatten_apply (y : FVec Ideal Sf .f32) (h : Sf.ShapeCasts Sx) (b : Fin 16) (s : Fin 4096) (o : Fin 512) :
    shapeCast Sx y h (ix3 b s o) = y (ix2 (flatRow b s) o) :=
  shapeCast_apply y h _ _ (by
    rw [Shape.rowMajor_val_three, Shape.rowMajor_val_two]
    rfl)

/-- THE REARRANGEMENT: the flat form over the flattened activations, the transposed (and re-formatted) weight and the
    one-row bias, folded back, is the batched form. -/
theorem dense_of_flat (x : FVec Ideal Sx .f32) (w : FVec Ideal Sw .f32) (bias : FVec Ideal Sb .f32)
    (h1 : Sx.ShapeCasts Sf) (ht : Sw.Transposes [1, 0] Sw) (hlt : FTy.bits .bf16 < FTy.bits .f32)
    (h2 : Sb.ShapeCasts Sr) (h3 : Sf.ShapeCasts Sx) :
    shapeCast Sx (denseFlat (shapeCast Sf x h1) (truncf .bf16 (transpose Sw [1, 0] w ht) hlt) (shapeCast Sr bias h2)) h3
      = dense x w bias := by
  funext i
  obtain ⟨b, s, o, rfl⟩ : ∃ (b : Fin 16) (s : Fin 4096) (o : Fin 512), i = ix3 b s o := ⟨i 0, i 1, i 2, eq_ix3 i⟩
  rw [unflatten_apply]
  unfold denseFlat dense
  show (∑ k : Fin 512, shapeCast Sf x h1 (ix2 (flatRow b s) k) * (truncf .bf16 (transpose Sw [1, 0] w ht) hlt) (ix2 k o))
      + shapeCast Sr bias h2 (ix2 (0 : Fin 1) o) = (∑ k : Fin 512, x (ix3 b s k) * w (ix2 o k)) + bias (ix1 o)
  rw [shapeCast_a_1a_apply]
  refine congrArg (· + bias (ix1 o)) (Finset.sum_congr rfl fun k _ => ?_)
  rw [flatten_apply, truncf_apply, transpose_ix2_apply]

end Cert.SignLinear

end
-- ==== Proof.Blocks.lean ====
/-
  From one grid step to the whole output matrix. The grid has 32 steps; step t reads rows [2048·t, 2048·t + 2048) of the
  flattened activations, the whole transposed weight and the whole bias row, and writes back rows
  [2048·t, 2048·t + 2048) of the [65536, 512] output. So the block a step writes is the restriction, to those rows, of ONE
  function of the three input arrays — the flat form of the layer — and since every row r lies in the block of step
  r / 2048, the output array after the last step is that function everywhere.
-/
import proofs.«137450_j61933428408793_1_alg».proof.Proof.Gen.KernelIdeal.Frame
import proofs.«137450_j61933428408793_1_alg».proof.Proof.Payload
import proofs.«137450_j61933428408793_1_alg».proof.Proof.Dense
import Idealize.ShloMosaic.Lib.Pipeline.Value

set_option maxRecDepth 16384

noncomputable section

open scoped BigOperators

namespace Cert.SignLinear.Blocks

open Cert.KernelIdeal Cert.KernelIdeal.Gen Cert.SignLinear.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## One step, over plain blocks -/

/-- If a step's activation block agrees with the flattened activations along the row it is asked at, and its weight
    and bias blocks are the whole arrays, then what the step stores at `j` is the flat form at the array index `i` with
    the same column. -/
theorem stored_eq_flat (x0 : Vec Ideal S2048x512 .f32) (x1 : Vec Ideal S512x512 .bf16) (x2 : Vec Ideal S1x512 .f32)
    (xf : FVec Ideal Sf .f32) (wt : FVec Ideal Sw .bf16) (b2 : FVec Ideal Sr .f32)
    (p : Fin 2048) (q : Fin 512) (i : Sf.Idx) (hcol : i 1 = q)
    (hx0 : ∀ k : Fin 512, x0 (ix2 p k) = xf (ix2 (i 0) k))
    (hx1 : ∀ k : Fin 512, x1 (ix2 k q) = wt (ix2 k q))
    (hx2 : x2 (ix2 (0 : Fin 1) q) = b2 (ix2 (0 : Fin 1) q)) :
    k0_pay1 (F := Ideal) x0 x1 x2 (ix2 p q) = denseFlat xf wt b2 i := by
  rw [stored_apply]
  unfold denseFlat
  rw [hcol, hx2]
  exact congrArg (· + b2 (ix2 (0 : Fin 1) q)) (Finset.sum_congr rfl fun k _ => by rw [hx0 k, hx1 k])

/-! ## The four index maps over the grid -/

theorem hz : (![0, 0] : Fin 2 → Nat) = fun _ => 0 := funext fun a => by fin_cases a <;> rfl

/-- Step t takes activation block (t, 0) and output block (t, 0); the weight and the bias have the one block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row block of the output is some step's. -/
theorem idx_onto : ∀ (b : Fin 32), ∃ t : Fin cfg0.N, win0_3.index t = ![b.val, 0] :=
  (by decide +kernel : ∀ (b : Fin 32), ∃ t : Fin grid0.N, win0_3.index t = ![b.val, 0])

/-! ## What a step writes back -/

/-- The flat form of the layer over the three arrays as the grid finds them. -/
abbrev flatResult (c : Dev nD) : S65536x512.Idx → EReal :=
  denseFlat (V m c main_v0) (V m c main_v3) (V m c main_v4)

/-- The block step `t` writes back is block `t` of the flat form. -/
theorem flushed_eq (c : Dev nD) (t : Fin cfg0.N) :
    (dats m 0 c).flushed 3 t = ((cfg0.win 3).blk t).view.read (Elt Ideal) (flatResult m c) := by
  show (cfg0.win 3).cut (grid0.coords t) ((dats m 0 c).after 3 t) = _
  rw [after0_3]
  unfold out0_3
  rw [View.canon_unit_zero hz]
  simp only [View.ld_unit_zero (S := S2048x512) hz, View.ld_unit_zero (S := S512x512) hz, View.ld_unit_zero (S := S1x512) hz]
  obtain ⟨e0, e1, e2, e3, e4, e5, e6, e7⟩ := idx_facts t
  funext j
  show k0_pay1 (F := Ideal) (iblk m c 0 t) (iblk m c 1 t) (iblk m c 2 t) (ix2 (j 0) (j 1))
    = denseFlat (V m c main_v0) (V m c main_v3) (V m c main_v4) (((cfg0.win 3).blk t).view.emb j)
  refine stored_eq_flat (iblk m c 0 t) (iblk m c 1 t) (iblk m c 2 t) (V m c main_v0) (V m c main_v3) (V m c main_v4)
    (j 0) (j 1) (((cfg0.win 3).blk t).view.emb j) ?_ ?_ ?_ ?_
  · apply Fin.ext
    show win0_3.index t (1 : Fin 2) * 512 + 1 * (j 1).val = (j 1).val
    omega
  · intro k
    show V m c main_v0 (((cfg0.win 0).blk t).view.emb (ix2 (j 0) k)) = V m c main_v0 (ix2 ((((cfg0.win 3).blk t).view.emb j) 0) k)
    refine congrArg (V m c main_v0) (funext fun a => Fin.ext ?_)
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 512 + 1 * k.val = k.val; omega
  · intro k
    show V m c main_v3 (((cfg0.win 1).blk t).view.emb (ix2 k (j 1))) = V m c main_v3 (ix2 k (j 1))
    refine congrArg (V m c main_v3) (funext fun a => Fin.ext ?_)
    match a with
    | ⟨0, _⟩ => show win0_1.index t (0 : Fin 2) * 512 + 1 * k.val = k.val; omega
    | ⟨1, _⟩ => show win0_1.index t (1 : Fin 2) * 512 + 1 * (j 1).val = (j 1).val; omega
  · show V m c main_v4 (((cfg0.win 2).blk t).view.emb (ix2 (0 : Fin 1) (j 1))) = V m c main_v4 (ix2 (0 : Fin 1) (j 1))
    refine congrArg (V m c main_v4) (funext fun a => Fin.ext ?_)
    match a with
    | ⟨0, _⟩ => show win0_2.index t (0 : Fin 2) * 1 + 1 * 0 = 0; omega
    | ⟨1, _⟩ => show win0_2.index t (1 : Fin 2) * 512 + 1 * (j 1).val = (j 1).val; omega

/-! ## The blocks cover the output -/

/-- An index of the output is in step `t`'s block iff each coordinate is in the block's range on its axis. -/
theorem mem_blk (t : Fin cfg0.N) (i : S65536x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v5).slice (win0_3.rect t)).set ↔ _
  rw [View.set_slice_whole, Rect.mem_set_unit]
  exact Iff.rfl

/-- Row r is in the block of step r / 2048. -/
theorem covered (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- The output matrix after the last step is the flat form of the layer. -/
theorem final (c : Dev nD) : (dats m 0 c).arrAt 3 cfg0.N = flatResult m c :=
  (dats m 0 c).arrAt_eq_of_cover 3 (flatResult m c) (fun t _ => flushed_eq m c t) covered

end Cert.SignLinear.Blocks

end
-- ==== Proof.Entry.lean ====
/-
  What the grid finds in its three input arrays. Before the kernel runs, the host flattens the activations
  [16, 4096, 512] → [65536, 512]; takes the sign of the weight, transposes it and changes its float format; and reshapes
  the bias [512] → [1, 512]. Each array is therefore a fixed function of one argument of the program.
-/
import proofs.«137450_j61933428408793_1_alg».proof.Proof.Gen.KernelIdeal.Frame
import Idealize.ShloMosaic.Lib.StableHlo.Run

noncomputable section

namespace Cert.SignLinear.Entry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The first operand is the activations, flattened. -/
theorem activations (c : Dev nD) :
    (V m c main_v0 : S65536x512.Idx → F .f32)
      = shapeCast S65536x512 (m ((c : Thread nD τ).loc main_arg0)) Facts₀.shapeCasts_S16x4096x512_S65536x512 := by
  show StableHlo.after hostOps0 (fun b => m (c, b)) (Proc.devRef .tc main_v0) = _
  after_results
  rfl

/-- The second operand is the sign of the weight, transposed, in the narrower float format. -/
theorem weight (c : Dev nD) :
    (V m c main_v3 : S512x512.Idx → F .bf16)
      = truncf .bf16 (transpose S512x512 [1, 0] (Host.sign (F := F) (m ((c : Thread nD τ).loc main_arg1)))
          Facts₀.transposes_S512x512_S512x512_1_0) Facts₀.bitsLt_bf16_f32 := by
  show StableHlo.after hostOps0 (fun b => m (c, b)) (Proc.devRef .tc main_v3) = _
  after_results

/-- The third operand is the bias as a one-row matrix. -/
theorem biasRow (c : Dev nD) :
    (V m c main_v4 : S1x512.Idx → F .f32)
      = shapeCast S1x512 (m ((c : Thread nD τ).loc main_arg2)) Facts₀.shapeCasts_S512_S1x512 := by
  show StableHlo.after hostOps0 (fun b => m (c, b)) (Proc.devRef .tc main_v4) = _
  after_results
  rfl

end Cert.SignLinear.Entry

end
-- ==== Proof.KernelSide.lean ====
/-
  The kernel program's result. After the grid the host folds the [65536, 512] output back to [16, 4096, 512]. The output is
  the flat form of the layer over the flattened activations, the transposed sign of the weight and the bias row; folded
  back, that is the batched form of the layer over the program's own three arguments, with the sign of the weight as
  its weight (the rearrangement of the specification module).
-/
import proofs.«137450_j61933428408793_1_alg».proof.Proof.Blocks
import proofs.«137450_j61933428408793_1_alg».proof.Proof.Entry
import proofs.«137450_j61933428408793_1_alg».proof.Proof.Dense
import Idealize.ShloMosaic.Lib.StableHlo.Run

noncomputable section

namespace Cert.SignLinear.KernelSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The layer over the program's arguments on core `c`. -/
abbrev layer (c : Dev nD) : S16x4096x512.Idx → EReal :=
  dense (m ((c : Thread nD τ).loc main_arg0)) (Host.sign (F := Ideal) (m ((c : Thread nD τ).loc main_arg1)))
    (m ((c : Thread nD τ).loc main_arg2))

/-- What the host's last line leaves in the result buffer: the grid's output, folded back, is the layer. -/
theorem folded_result (c : Dev nD) :
    Pipeline.afterTail₀ cfgs (dats m) 0 (V0 m) [hostOps1] c main_v6 = layer m c := by
  have hw : Pipeline.withArrays spec0 c (V0 m c) (fun w => (dats m 0 c).arrAt w cfg0.N) (Proc.devRef .tc main_v5)
      = Blocks.flatResult m c :=
    (Pipeline.withArrays_arr spec0 launch0.win.arr_inj c _ _ 3).trans (Blocks.final m c)
  unfold Pipeline.afterTail₀
  show StableHlo.after hostOps1 _ (Proc.devRef .tc main_v6) = _
  after_results
  show shapeCast S16x4096x512 (Pipeline.withArrays spec0 c (V0 m c) (fun w => (dats m 0 c).arrAt w cfg0.N) (Proc.devRef .tc main_v5))
      Facts₀.shapeCasts_S65536x512_S16x4096x512 = _
  rw [hw]
  show shapeCast S16x4096x512 (denseFlat (V m c main_v0) (V m c main_v3) (V m c main_v4)) Facts₀.shapeCasts_S65536x512_S16x4096x512 = _
  rw [Entry.activations, Entry.weight, Entry.biasRow]
  exact dense_of_flat _ _ _ _ _ _ _ _

/-- The kernel program's run, read: the result buffer ends at the layer of the arguments, the arguments unchanged. -/
theorem run : θ_run defs (onTc (τ := τ) (main (F := Ideal))) ⟨m, fun _ => 0, ρ⟩ fun r => ∀ c : Dev nD,
      r.2.mem ((c : Thread nD τ).loc main_v6) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v6 (Pipeline.mem_restRefs_of main_v6 (by decide) (by decide))).trans (folded_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.SignLinear.KernelSide

end
-- ==== Proof.RefSide.lean ====
/-
  The reference, read at an index: the contraction of the last axis of the activations with the last axis of the
  binarised weight is, at (b, s, o), the sum over k of x[b, s, k] · sign(w)[o, k]; the bias is broadcast along the last
  axis and added. That is the
  batched form of the layer with `sign(w)` as its weight. The binarisation itself is never opened: it is the same
  host operation on the same argument in both programs.
-/
import proofs.«137450_j61933428408793_1_alg».proof.Proof.Gen.ReferenceIdeal.Read
import proofs.«137450_j61933428408793_1_alg».proof.Proof.Dense

noncomputable section

open scoped BigOperators

namespace Cert.SignLinear.RefSide

open Cert.ReferenceIdeal Cert.ReferenceIdeal.Gen Cert.ReferenceIdeal.Read
open Idealize.ShloMosaic Idealize.ShloMosaic.ValueIdx

/-- The reference's result, as a function of its three arguments, is the layer applied to the activations, the
    binarised weight and the bias. -/
theorem reference_is_dense (x : FVec Ideal Sx .f32) (w : FVec Ideal Sw .f32) (bias : FVec Ideal Sb .f32) :
    val_main_v4 (F := Ideal) x w bias = dense x (Host.sign (F := Ideal) w) bias := by
  funext i
  -- the left operand of the product is read at (b, s, k), the right at (o, k), the bias at o
  have el : ∀ k : Fin 512, lidx_main_v1 i k = ix3 (i 0) (i 1) k := fun k =>
    funext fun a => Fin.ext (by match a with | ⟨0, _⟩ => rfl | ⟨1, _⟩ => rfl | ⟨2, _⟩ => rfl)
  have er : ∀ k : Fin 512, ridx_main_v1 i k = ix2 (i 2) k := fun k =>
    funext fun a => Fin.ext (by match a with | ⟨0, _⟩ => rfl | ⟨1, _⟩ => rfl)
  have eb : idx_main_v2 (idx_main_v3 i) = ix1 (i 2) :=
    funext fun a => Fin.ext (by match a with | ⟨0, _⟩ => rfl)
  rw [val_main_v4_apply, val_main_v1_apply, val_main_v3_apply, val_main_v2_apply]
  simp only [el, er, eb]
  rfl

end Cert.SignLinear.RefSide

end
-- ==== Proof.lean ====
/-
  A dense layer with a binarised weight, y[b, s, o] = Σ_k x[b, s, k] · sign(w)[o, k] + bias[o], computed two ways.

  The kernel program flattens the activations to a [65536, 512] matrix, takes the sign of the weight on the host,
  transposes it, and runs a grid of 32 steps, each multiplying 2048 rows by the whole [512, 512] matrix and adding the
  bias row; the [65536, 512] result is folded back to [16, 4096, 512]. The reference contracts the last axis of the
  activations with the last axis of sign(w) directly and adds the bias along the last axis.

  On the extended reals both are the same function of the three arguments, entry by entry: a change of float format is
  the identity, a product into a zero accumulator is the plain sum over the contracted axis, flattening and folding
  back preserve row-major position, and a transposed matrix read at (k, o) is the matrix at (o, k). The sign of the
  weight is the same operation on the same argument on both sides and is never opened. Only the summands are
  rewritten, by equalities of indices; no distributivity or cancellation is used, so the finiteness of the inputs is
  not needed for the value claim.

  The frames of the two kernel programs are the generated ones; the reference's frame is its generated run with the
  result dropped; the idealisation rewrote no operation, so the preservation claim is trivial.
-/
import proofs.«137450_j61933428408793_1_alg».proof.Defs
import proofs.«137450_j61933428408793_1_alg».proof.Proof.Gen.Kernel
import proofs.«137450_j61933428408793_1_alg».proof.Proof.Gen.Kernel.Frame
import proofs.«137450_j61933428408793_1_alg».proof.Proof.Gen.KernelIdeal
import proofs.«137450_j61933428408793_1_alg».proof.Proof.Gen.KernelIdeal.Frame
import proofs.«137450_j61933428408793_1_alg».proof.Proof.Gen.ReferenceIdeal
import proofs.«137450_j61933428408793_1_alg».proof.Proof.Gen.ReferenceIdeal.Run
import proofs.«137450_j61933428408793_1_alg».proof.Proof.Gen.ReferenceIdeal.Read
import proofs.«137450_j61933428408793_1_alg».proof.Proof.Gen.Pre_finite_inputs
import proofs.«137450_j61933428408793_1_alg».proof.Proof.KernelSide
import proofs.«137450_j61933428408793_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its generated run, the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer of those arguments in their result. -/
theorem algebraic : Cert.algebraic_KernelIdeal_ReferenceIdeal := by
  intro m ρ m' ρ' _ hagree
  refine ⟨fun c => Cert.SignLinear.KernelSide.layer m c, Cert.SignLinear.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.SignLinear.RefSide.reference_is_dense,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
